-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2097152 : Shape := ⟨2, ![2, 2097152]⟩
abbrev S2097152 : Shape := ⟨1, ![2097152]⟩
abbrev S8192x128 : Shape := ⟨2, ![8192, 128]⟩
abbrev S_ : Shape := ⟨0, ![]⟩

class Facts : Prop where
  bcast_S_S2097152 : S_.BroadcastsInDim S2097152 (![] : Fin 0 → Fin S2097152.rank)
  reducesTo_S2097152_S_d0 : S2097152.ReducesTo [0] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S2x2097152 : S_.BroadcastsInDim S2x2097152 (![] : Fin 0 → Fin S2x2097152.rank)
  reducesTo_S2x2097152_S_d0_1 : S2x2097152.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S2x2097152 32) (main_arg1 : FVec F S2097152 .f32) (main_arg2 : FVec F S8192x128 .f32) : IVec S_ 1 :=
  let main_v0 : FVec F S2097152 .f32 := Host.absf main_arg1
  let main_cst : FVec F S_ .f32 := constant S_ .f32 0x7F800000#32
  let main_v1 : FVec F S2097152 .f32 := broadcastInDim S2097152 ![] bcast_S_S2097152 main_cst
  let main_v2 : IVec S2097152 1 := cmpf .olt main_v0 main_v1
  let main_c : IVec S_ 1 := constantI S_ 1 1#1
  let main_v3 : IVec S_ 1 := (fun x v => Host.reduce IntOp.andi x v reducesTo_S2097152_S_d0 h_S_) main_v2 main_c
  let main_v4 : FVec F S8192x128 .f32 := Host.absf main_arg2
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_c_2 : IVec S_ 32 := constantI S_ 32 0#32
  let main_v9 : IVec S2x2097152 32 := broadcastInDim S2x2097152 ![] bcast_S_S2x2097152 main_c_2
  let main_v10 : IVec S2x2097152 1 := cmpi .sge main_arg0 main_v9
  let main_c_3 : IVec S_ 1 := constantI S_ 1 1#1
  let main_v11 : IVec S_ 1 := (fun x v => Host.reduce IntOp.andi x v reducesTo_S2x2097152_S_d0_1 h_S_) main_v10 main_c_3
  let main_v12 : IVec S_ 1 := andi main_v8 main_v11
  let main_c_4 : IVec S_ 32 := constantI S_ 32 8192#32
  let main_v13 : IVec S2x2097152 32 := broadcastInDim S2x2097152 ![] bcast_S_S2x2097152 main_c_4
  let main_v14 : IVec S2x2097152 1 := cmpi .slt main_arg0 main_v13
  let main_c_5 : IVec S_ 1 := constantI S_ 1 1#1
  let main_v15 : IVec S_ 1 := (fun x v => Host.reduce IntOp.andi x v reducesTo_S2x2097152_S_d0_1 h_S_) main_v14 main_c_5
  fn_part1 (F := F) main_v12 main_v15
-- ==== Kernel.lean ====
abbrev S2x2097152 : Shape := ⟨2, ![2, 2097152]⟩
abbrev S2097152 : Shape := ⟨1, ![2097152]⟩
abbrev S8192x128 : Shape := ⟨2, ![8192, 128]⟩
abbrev S1x2097152 : Shape := ⟨2, ![1, 2097152]⟩
abbrev S_ : Shape := ⟨0, ![]⟩
abbrev S8192x8192 : Shape := ⟨2, ![8192, 8192]⟩
abbrev S2097152x1 : Shape := ⟨2, ![2097152, 1]⟩
abbrev S2097152x2 : Shape := ⟨2, ![2097152, 2]⟩
abbrev S1024x8192 : Shape := ⟨2, ![1024, 8192]⟩
abbrev S1024x128 : Shape := ⟨2, ![1024, 128]⟩

abbrev nBuf : Space → Nat
  | .hbm => 30
  | .vmem => 5
  | .smem => 0
  | _ => 0

abbrev bufTy : (tb : Table) → Fin (tcTables nBuf tb) → BufTy
  | .hbm, ⟨0, _⟩ => ⟨S2x2097152, .i32⟩
  | .hbm, ⟨1, _⟩ => ⟨S2097152, .f32⟩
  | .hbm, ⟨2, _⟩ => ⟨S8192x128, .f32⟩
  | .hbm, ⟨3, _⟩ => ⟨S1x2097152, .i32⟩
  | .hbm, ⟨4, _⟩ => ⟨S2097152, .i32⟩
  | .hbm, ⟨5, _⟩ => ⟨S1x2097152, .i32⟩
  | .hbm, ⟨6, _⟩ => ⟨S2097152, .i32⟩
  | .hbm, ⟨7, _⟩ => ⟨S_, .f32⟩
  | .hbm, ⟨8, _⟩ => ⟨S8192x8192, .f32⟩
  | .hbm, ⟨9, _⟩ => ⟨S_, .i32⟩
  | .hbm, ⟨10, _⟩ => ⟨S2097152, .i32⟩
  | .hbm, ⟨11, _⟩ => ⟨S2097152, .i1⟩
  | .hbm, ⟨12, _⟩ => ⟨S_, .i32⟩
  | .hbm, ⟨13, _⟩ => ⟨S2097152, .i32⟩
  | .hbm, ⟨14, _⟩ => ⟨S2097152, .i32⟩
  | .hbm, ⟨15, _⟩ => ⟨S2097152, .i32⟩
  | .hbm, ⟨16, _⟩ => ⟨S_, .i32⟩
  | .hbm, ⟨17, _⟩ => ⟨S2097152, .i32⟩
  | .hbm, ⟨18, _⟩ => ⟨S2097152, .i1⟩
  | .hbm, ⟨19, _⟩ => ⟨S_, .i32⟩
  | .hbm, ⟨20, _⟩ => ⟨S2097152, .i32⟩
  | .hbm, ⟨21, _⟩ => ⟨S2097152, .i32⟩
  | .hbm, ⟨22, _⟩ => ⟨S2097152, .i32⟩
  | .hbm, ⟨23, _⟩ => ⟨S2097152x1, .i32⟩
  | .hbm, ⟨24, _⟩ => ⟨S2097152x1, .i32⟩
  | .hbm, ⟨25, _⟩ => ⟨S2097152x2, .i32⟩
  | .hbm, ⟨26, _⟩ => ⟨S8192x8192, .f32⟩
  | .hbm, ⟨27, _⟩ => ⟨S8192x8192, .bf16⟩
  | .hbm, ⟨28, _⟩ => ⟨S8192x128, .bf16⟩
  | .hbm, ⟨29, _⟩ => ⟨S8192x128, .f32⟩
  | .local _ .vmem, ⟨0, _⟩ => ⟨S1024x8192, .bf16⟩
  | .local _ .vmem, ⟨1, _⟩ => ⟨S1024x8192, .bf16⟩
  | .local _ .vmem, ⟨2, _⟩ => ⟨S8192x128, .bf16⟩
  | .local _ .vmem, ⟨3, _⟩ => ⟨S1024x128, .f32⟩
  | .local _ .vmem, ⟨4, _⟩ => ⟨S1024x128, .f32⟩
  | _, _ => ⟨S2x2097152, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  bcast_S_S8192x8192 : S_.BroadcastsInDim S8192x8192 (![] : Fin 0 → Fin S8192x8192.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x1_S2097152x1_S2097152x2_d1 : Shape.Concatenates [S2097152x1, S2097152x1] S2097152x2 1
  bitsLt_bf16_f32 : FTy.bits .bf16 < FTy.bits .f32
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S1024x128_S1024x128_0_0 : ∀ a, (![0, 0] : Fin 2 → Nat) a + S1024x128.size a ≤ S1024x128.size a
  h_S1024x128 : 0 < S1024x128.numel
  scatter_S8192x8192_S2097152x2_S2097152_n_01_01_1_wf : ScatterDims.WF S8192x8192 S2097152x2 S2097152 [] [0, 1] [0, 1] 1
  dot_S1024x8192_S8192x128_S1024x128_1_0_0_1_n_n_wf : DotDims.WF S1024x8192 S8192x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8192.size a ≤ S8192x8192.size a
  hwx0_0 : ∀ i : grid0.Coords, EltTy.bits .bf16 = 32 ∨ (Rect.block (s := S8192x8192) S1024x8192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)

variable [Facts₀]

def scatter_S8192x8192_S2097152x2_S2097152_n_01_01_1 : ScatterDims S8192x8192 S2097152x2 S2097152 where
  updateWindowDims := []
  insertedWindowDims := [0, 1]
  scatterDimsToOperandDims := [0, 1]
  indexVectorDim := 1
  wf := scatter_S8192x8192_S2097152x2_S2097152_n_01_01_1_wf
def dot_S1024x8192_S8192x128_S1024x128_1_0_0_1_n_n : DotDims S1024x8192 S8192x128 S1024x128 where
  lhsContracting := [1]
  rhsContracting := [0]
  lhsNonContracting := [0]
  rhsNonContracting := [1]
  lhsBatch := []
  rhsBatch := []
  wf := dot_S1024x8192_S8192x128_S1024x128_1_0_0_1_n_n_wf

abbrev win0_0 : Pipeline.Window sig grid0 :=
  Pipeline.Window.ofSpec (Memref.whole main_v19) S1024x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x2097152 : Shape := ⟨2, ![2, 2097152]⟩
abbrev S2097152 : Shape := ⟨1, ![2097152]⟩
abbrev S8192x128 : Shape := ⟨2, ![8192, 128]⟩
abbrev S1x2097152 : Shape := ⟨2, ![1, 2097152]⟩
abbrev S2097152x1 : Shape := ⟨2, ![2097152, 1]⟩
abbrev S_ : Shape := ⟨0, ![]⟩
abbrev S2097152x128 : Shape := ⟨2, ![2097152, 128]⟩

abbrev nBuf : Space → Nat
  | .hbm => 23
  | .vmem => 0
  | .smem => 0
  | _ => 0

abbrev bufTy : (tb : Table) → Fin (tcTables nBuf tb) → BufTy
  | .hbm, ⟨0, _⟩ => ⟨S2x2097152, .i32⟩
  | .hbm, ⟨1, _⟩ => ⟨S2097152, .f32⟩
  | .hbm, ⟨2, _⟩ => ⟨S8192x128, .f32⟩
  | .hbm, ⟨3, _⟩ => ⟨S1x2097152, .i32⟩
  | .hbm, ⟨4, _⟩ => ⟨S2097152, .i32⟩
  | .hbm, ⟨5, _⟩ => ⟨S1x2097152, .i32⟩
  | .hbm, ⟨6, _⟩ => ⟨S2097152, .i32⟩
  | .hbm, ⟨7, _⟩ => ⟨S2097152x1, .f32⟩
  | .hbm, ⟨8, _⟩ => ⟨S_, .i32⟩
  | .hbm, ⟨9, _⟩ => ⟨S2097152, .i32⟩
  | .hbm, ⟨10, _⟩ => ⟨S2097152, .i1⟩
  | .hbm, ⟨11, _⟩ => ⟨S_, .i32⟩
  | .hbm, ⟨12, _⟩ => ⟨S2097152, .i32⟩
  | .hbm, ⟨13, _⟩ => ⟨S2097152, .i32⟩
  | .hbm, ⟨14, _⟩ => ⟨S2097152, .i32⟩
  | .hbm, ⟨15, _⟩ => ⟨S2097152x1, .i32⟩
  | .hbm, ⟨16, _⟩ => ⟨S2097152x128, .f32⟩
  | .hbm, ⟨17, _⟩ => ⟨S2097152x128, .f32⟩
  | .hbm, ⟨18, _⟩ => ⟨S2097152x128, .f32⟩
  | .hbm, ⟨19, _⟩ => ⟨S_, .f32⟩
  | .hbm, ⟨20, _⟩ => ⟨S8192x128, .f32⟩
  | .hbm, ⟨21, _⟩ => ⟨S2097152x1, .i32⟩
  | .hbm, ⟨22, _⟩ => ⟨S8192x128, .f32⟩
  | _, _ => ⟨S2x2097152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  bcast_S2097152_S2097152x1_0 : S2097152.BroadcastsInDim S2097152x1 (![0] : Fin 1 → Fin S2097152x1.rank)
  bcast_S_S2097152 : S_.BroadcastsInDim S2097152 (![] : Fin 0 → Fin S2097152.rank)
  bcast_S2097152x1_S2097152x128_0_1 : S2097152x1.BroadcastsInDim S2097152x128 (![0, 1] : Fin 2 → Fin S2097152x128.rank)
  bcast_S_S8192x128 : S_.BroadcastsInDim S8192x128 (![] : Fin 0 → Fin S8192x128.rank)
  gather_S8192x128_S2097152x1_S2097152x128_1_0_n_n_0_1_1128_wf : GatherDims.WF S8192x128 S2097152x1 S2097152x128 [1] [0] [] [0] [] 1 ![1, 128]
  scatter_S8192x128_S2097152x1_S2097152x128_1_0_0_1_wf : ScatterDims.WF S8192x128 S2097152x1 S2097152x128 [1] [0] [0] 1

variable [Facts₀]

def gather_S8192x128_S2097152x1_S2097152x128_1_0_n_n_0_1_1128 : GatherDims S8192x128 S2097152x1 S2097152x128 where
  offsetDims := [1]
  collapsedSliceDims := [0]
  operandBatchingDims := []
  startIndicesBatchingDims := []
  startIndexMap := [0]
  indexVectorDim := 1
  sliceSizes := ![1, 128]
  wf := gather_S8192x128_S2097152x1_S2097152x128_1_0_n_n_0_1_1128_wf
def scatter_S8192x128_S2097152x1_S2097152x128_1_0_0_1 : ScatterDims S8192x128 S2097152x1 S2097152x128 where
  updateWindowDims := [1]
  insertedWindowDims := [0]
  scatterDimsToOperandDims := [0]
  indexVectorDim := 1
  wf := scatter_S8192x128_S2097152x1_S2097152x128_1_0_0_1_wf

class Facts : Prop extends Facts₀ where

variable [Facts]
-- ==== Proof.Spec.lean ====
/-
  What both programs compute, as one function of the three argument arrays, and the two facts about the arguments the
  proof uses.

  The arguments are a list of 2097152 matrix entries — `ids` holds each entry's row number (its row 0) and column
  number (its row 1), `vals` its value — and a dense matrix `x` of 8192 rows and 128 columns. The result, at row `r`
  and column `b`, is the sum over the entries whose row number is `r` of the entry's value times `x` at the entry's
  column number and at `b`: the product of the sparse matrix the entries describe (entries naming one cell added up)
  with `x`.
-/
import Idealize.ShloMosaic.Lib.ValueIdx

noncomputable section

open scoped BigOperators

namespace Cert.SparseMM

open Idealize.ShloMosaic Idealize.ShloMosaic.ValueIdx

abbrev SIds : Shape := ⟨2, ![2, 2097152]⟩
abbrev SVals : Shape := ⟨1, ![2097152]⟩
abbrev SX : Shape := ⟨2, ![8192, 128]⟩

/-- Every row number and every column number, read signed, is one of an 8192 × 8192 matrix. -/
def InRange (ids : IVec SIds 32) : Prop :=
  ∀ (a : Fin 2) (k : Fin 2097152), 0 ≤ (ids (ix2 a k)).toInt ∧ (ids (ix2 a k)).toInt < 8192

/-- A word that is not negative when read signed reads the same unsigned. -/
theorem toInt_eq_toNat_of_nonneg (w : BitVec 32) (h : 0 ≤ w.toInt) : w.toInt = (w.toNat : Int) := by
  rw [BitVec.toInt_eq_toNat_cond] at h ⊢
  split
  · rfl
  · rename_i hlt
    rw [if_neg hlt] at h
    have := w.isLt
    omega

theorem InRange.toInt_eq {ids : IVec SIds 32} (h : InRange ids) (a : Fin 2) (k : Fin 2097152) :
    (ids (ix2 a k)).toInt = ((ids (ix2 a k)).toNat : Int) :=
  toInt_eq_toNat_of_nonneg _ (h a k).1

theorem InRange.toNat_lt {ids : IVec SIds 32} (h : InRange ids) (a : Fin 2) (k : Fin 2097152) :
    (ids (ix2 a k)).toNat < 8192 := by
  have h1 := (h a k).2
  rw [h.toInt_eq a k] at h1
  exact_mod_cast h1

/-- Every value is a real number. -/
def RealVals (vals : FVec Ideal SVals .f32) : Prop := ∀ k : Fin 2097152, ∃ r : ℝ, vals (ix1 k) = (r : EReal)

/-- Every element of the dense matrix is a real number. -/
def RealX (x : FVec Ideal SX .f32) : Prop := ∀ i : SX.Idx, ∃ r : ℝ, x i = (r : EReal)

/-- The row of `x` entry `k` multiplies: its column number, kept below 8192. -/
def colAt (ids : IVec SIds 32) (k : Fin 2097152) : Fin 8192 := ⟨min (ids (ix2 1 k)).toNat 8191, by omega⟩

/-- THE RESULT: at (r, b), the sum over the entries `k` of row `r` of `vals k` times `x` at (column of `k`, b). -/
def G (ids : IVec SIds 32) (vals : FVec Ideal SVals .f32) (x : FVec Ideal SX .f32) : FVec Ideal SX .f32 :=
  fun i => ∑ k ∈ Finset.univ.filter (fun k : Fin 2097152 => (ids (ix2 0 k)).toNat = (i 0).val),
    vals (ix1 k) * x (ix2 (colAt ids k) (i 1 : Fin 128))

end Cert.SparseMM

end
-- ==== Proof.PreDecode.lean ====
/-
  The precondition, read back: it is the conjunction of four tests over whole arrays — every value's absolute value
  below +∞, every element of the dense matrix likewise, every row and column number at least 0, every one below 8192 —
  each an `and` over all elements. So under it every value and every element of the dense matrix is a real number, and
  every row and column number, read signed, lies in [0, 8192).
-/
import proofs.«405985_j68556267978819_2_alg».proof.Pre_finite_inputs
import proofs.«405985_j68556267978819_2_alg».proof.Proof.Spec
import Idealize.ShloMosaic.Lib.ReduceAll

noncomputable section

namespace Cert.SparseMM

open Idealize.ShloMosaic Idealize.ShloMosaic.ValueIdx

/-- An extended real whose absolute value is below +∞ is a real number. -/
theorem real_of_abs_lt_inf (a : EReal)
    (h : Ideal.cmp .olt (max a (-a)) (Ideal.ofBits .f32 0x7F800000#32) = 1#1) : ∃ r : ℝ, a = (r : EReal) := by
  have hinf : Ideal.ofBits .f32 0x7F800000#32 = (⊤ : EReal) := by simp [Ideal.ofBits, Ideal.ieee]
  rw [hinf] at h
  induction a using EReal.rec with
  | bot => exact absurd h (by simp [Ideal.cmp])
  | top => exact absurd h (by simp [Ideal.cmp])
  | coe r => exact ⟨r, rfl⟩

/-- THE PRECONDITION READ BACK. -/
theorem of_pre [Cert.Pre_finite_inputs.Facts] (ids : IVec SIds 32) (vals : FVec Ideal SVals .f32) (x : FVec Ideal SX .f32)
    (h : Cert.Pre_finite_inputs.fn (F := Ideal) ids vals x = fun _ => 1#1) : InRange ids ∧ RealVals vals ∧ RealX x := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  haveI : Subsingleton Cert.Pre_finite_inputs.S_.Idx := ⟨fun a b => funext fun d => d.elim0⟩
  refine ⟨fun a k => ⟨?_, ?_⟩, fun k => ?_, fun i => ?_⟩
  · have e := Host.reduce_andi_all _ _ _ _ _ h3 (ix2 a k)
    have e' : IntOp.cmpi .sge (ids (ix2 a k)) 0#32 = 1#1 := e
    exact IntOp.cmpi_sge.1 e'
  · have e := Host.reduce_andi_all _ _ _ _ _ h4 (ix2 a k)
    have e' : IntOp.cmpi .slt (ids (ix2 a k)) 8192#32 = 1#1 := e
    exact IntOp.cmpi_slt.1 e'
  · have e := Host.reduce_andi_all _ _ _ _ _ h1 (ix1 k)
    exact real_of_abs_lt_inf _ e
  · have e := Host.reduce_andi_all _ _ _ _ _ h2 i
    exact real_of_abs_lt_inf _ e

end Cert.SparseMM

end
-- ==== Proof.LibScatterRead.lean ====
/-
  The two accumulating scatters and the row gather of a sparse-times-dense product, read at an index on the extended
  reals.

  An accumulating scatter leaves, at every element of its operand, that element plus the sum of the updates that land
  on it; an update lands where its start index, read signed and not clamped, plus its window coordinate says, and is
  dropped when that is outside the operand. Two layouts occur here. CELLS: the operand is a matrix [R, C], the start
  indices are pairs (row, column) in an array [N, 2], and update `k` of a vector [N] lands on the cell its pair names.
  ROWS: the operand is [R, B], the start indices a column [N, 1] of rows, and the updates an array [N, B] whose row
  `k` lands, entry by entry, on the operand row its start index names. The gather is the inverse reading: an operand
  [S, B] at a column [N, 1] of start indices gives [N, B], row `k` the operand's row at the start index, read signed
  and clamped into [0, S - 1].
-/
import Idealize.ShloMosaic.Lib.ValueIdx

noncomputable section

open scoped BigOperators

namespace Cert.SparseMM

open Idealize.ShloMosaic Idealize.ShloMosaic.ValueIdx

/-! ## Where an update lands, for any dimension numbers -/

/-- An update index lands on operand index `i` exactly when on every axis its start plus its window coordinate is
    `i`'s coordinate: inside the operand the landing index is those sums, and outside it there is none. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      rw [← e']
      exact (Int.toNat_of_nonneg (h a).1).symm
    · intro e
      refine congrArg some (funext fun a => Fin.ext ?_)
      show (d.start j idx a + (d.window j a : Int)).toNat = (i a).val
      rw [e a]
      exact Int.toNat_natCast _
  · rename_i h
    constructor
    · intro e
      cases e
    · intro e
      refine absurd (fun a => ?_) h
      rw [e a]
      exact ⟨Int.natCast_nonneg _, by exact_mod_cast (i a).isLt⟩

/-- A vector's indices are its positions. -/
def idxEquiv1 {n : Nat} : (⟨1, ![n]⟩ : Shape).Idx ≃ Fin n where
  toFun i := i 0
  invFun k := ix1 k
  left_inv i := (eq_ix1 i).symm
  right_inv _ := rfl

/-! ## Cells: pairs (row, column) name the cell each update lands on -/

section Cells

/-- The dimension numbers of the scatter onto cells: no window axes, both operand axes inserted and named, in order,
    by the two entries of a start index, the index vector along axis 1. -/
abbrev cellDims (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

variable {R C N w : Nat} (wf : ScatterDims.WF ⟨2, ![R, C]⟩ ⟨2, ![N, 2]⟩ ⟨1, ![N]⟩ [] [0, 1] [0, 1] 1)

/-- On the row axis update `k` starts at the first entry of its pair. -/
theorem cell_start0 (idx : IVec ⟨2, ![N, 2]⟩ w) (k : Fin N) :
    (cellDims R C N wf).start (ix1 k) idx 0 = (idx (ix2 k 0)).toInt := by
  unfold ScatterDims.start
  rw [dif_pos (show (0 : Fin 2) ∈ ([0, 1] : List (Fin 2)) by decide)]
  have hsi : (cellDims R C N wf).siIdx (ix1 k) ⟨List.idxOf (0 : Fin 2) (cellDims R C N wf).scatterDimsToOperandDims,
      List.idxOf_lt_length_iff.2 (show (0 : Fin 2) ∈ ([0, 1] : List (Fin 2)) by decide)⟩ = ix2 k 0 := by
    funext b; refine Fin.ext ?_
    match b with
    | ⟨0, _⟩ => rfl
    | ⟨1, _⟩ => rfl
  rw [hsi]

/-- On the column axis it starts at the second entry. -/
theorem cell_start1 (idx : IVec ⟨2, ![N, 2]⟩ w) (k : Fin N) :
    (cellDims R C N wf).start (ix1 k) idx 1 = (idx (ix2 k 1)).toInt := by
  unfold ScatterDims.start
  rw [dif_pos (show (1 : Fin 2) ∈ ([0, 1] : List (Fin 2)) by decide)]
  have hsi : (cellDims R C N wf).siIdx (ix1 k) ⟨List.idxOf (1 : Fin 2) (cellDims R C N wf).scatterDimsToOperandDims,
      List.idxOf_lt_length_iff.2 (show (1 : Fin 2) ∈ ([0, 1] : List (Fin 2)) by decide)⟩ = ix2 k 1 := by
    funext b; refine Fin.ext ?_
    match b with
    | ⟨0, _⟩ => rfl
    | ⟨1, _⟩ => rfl
  rw [hsi]

/-- There is no window: both operand axes are inserted. -/
theorem cell_window (j : (⟨1, ![N]⟩ : Shape).Idx) (a : Fin 2) : (cellDims R C N wf).window j a = 0 := by
  unfold ScatterDims.window
  refine dif_neg ?_
  show ¬ (a ∈ ((List.finRange 2).filter (· ∉ ([0, 1] : List (Fin 2)))))
  revert a
  decide

/-- Update `k` lands on cell (r, c) exactly when its pair, read signed, is (r, c). -/
theorem cell_lands_iff (idx : IVec ⟨2, ![N, 2]⟩ w) (k : Fin N) (r : Fin R) (c : Fin C) :
    (cellDims R C N wf).resultIdx? (ix1 k) idx = some (ix2 r c) ↔
      (idx (ix2 k 0)).toInt = (r.val : Int) ∧ (idx (ix2 k 1)).toInt = (c.val : Int) := by
  rw [resultIdx?_eq_some_iff]
  constructor
  · intro h
    have h0 := h 0
    have h1 := h 1
    rw [cell_start0, cell_window, Nat.cast_zero, add_zero] at h0
    rw [cell_start1, cell_window, Nat.cast_zero, add_zero] at h1
    exact ⟨h0, h1⟩
  · intro h a
    match a with
    | ⟨0, _⟩ =>
      show (cellDims R C N wf).start (ix1 k) idx 0 + ((cellDims R C N wf).window (ix1 k) 0 : Int) = (r.val : Int)
      rw [cell_start0, cell_window, Nat.cast_zero, add_zero]; exact h.1
    | ⟨1, _⟩ =>
      show (cellDims R C N wf).start (ix1 k) idx 1 + ((cellDims R C N wf).window (ix1 k) 1 : Int) = (c.val : Int)
      rw [cell_start1, cell_window, Nat.cast_zero, add_zero]; exact h.2

/-- THE SCATTER ONTO CELLS READ AT (r, c): the operand's cell plus the sum of the updates whose pair is (r, c). -/
theorem scatterAdd_cells_apply {φ : FTy} (x : FVec Ideal ⟨2, ![R, C]⟩ φ) (idx : IVec ⟨2, ![N, 2]⟩ w)
    (upd : FVec Ideal ⟨1, ![N]⟩ φ) (r : Fin R) (c : Fin C) :
    Host.scatterAdd (cellDims R C N wf) x idx upd (ix2 r c)
      = x (ix2 r c) + ∑ k ∈ Finset.univ.filter (fun k : Fin N =>
          (idx (ix2 k 0)).toInt = (r.val : Int) ∧ (idx (ix2 k 1)).toInt = (c.val : Int)), upd (ix1 k) := by
  show Ideal.hostScatterAdd (cellDims R C N wf) x idx upd (ix2 r c) = _
  unfold Ideal.hostScatterAdd
  refine congrArg (x (ix2 r c) + ·) ?_
  refine Finset.sum_equiv idxEquiv1 (fun j => ?_) (fun j _ => congrArg upd (eq_ix1 j))
  rw [Finset.mem_filter, Finset.mem_filter]
  refine and_congr (by simp) ?_
  rw [eq_ix1 j]
  exact cell_lands_iff wf idx (j 0) r c

end Cells

/-! ## Rows: a column of row numbers names the operand row each update row lands on -/

section Rows

/-- The dimension numbers of the scatter onto rows: the updates' axis 1 is the window, the operand's axis 0 is inserted
    and named by the one entry of a start index, the index vector along axis 1. -/
abbrev rowDims (R B N : Nat) (wf : ScatterDims.WF ⟨2, ![R, B]⟩ ⟨2, ![N, 1]⟩ ⟨2, ![N, B]⟩ [1] [0] [0] 1) :
    ScatterDims ⟨2, ![R, B]⟩ ⟨2, ![N, 1]⟩ ⟨2, ![N, B]⟩ where
  updateWindowDims := [1]
  insertedWindowDims := [0]
  scatterDimsToOperandDims := [0]
  indexVectorDim := 1
  wf := wf

variable {R B N w : Nat} (wf : ScatterDims.WF ⟨2, ![R, B]⟩ ⟨2, ![N, 1]⟩ ⟨2, ![N, B]⟩ [1] [0] [0] 1)

/-- On the row axis update (k, b) starts at entry `k` of the column of row numbers. -/
theorem row_start0 (idx : IVec ⟨2, ![N, 1]⟩ w) (k : Fin N) (b : Fin B) :
    (rowDims R B N wf).start (ix2 k b) idx 0 = (idx (ix2 k 0)).toInt := by
  unfold ScatterDims.start
  rw [dif_pos (show (0 : Fin 2) ∈ ([0] : List (Fin 2)) by decide)]
  have hsi : (rowDims R B N wf).siIdx (ix2 k b) ⟨List.idxOf (0 : Fin 2) (rowDims R B N wf).scatterDimsToOperandDims,
      List.idxOf_lt_length_iff.2 (show (0 : Fin 2) ∈ ([0] : List (Fin 2)) by decide)⟩ = ix2 k 0 := by
    funext a; refine Fin.ext ?_
    match a with
    | ⟨0, _⟩ => rfl
    | ⟨1, _⟩ => rfl
  rw [hsi]

/-- On the other axis it starts at zero: no entry names it. -/
theorem row_start1 (idx : IVec ⟨2, ![N, 1]⟩ w) (j : (⟨2, ![N, B]⟩ : Shape).Idx) :
    (rowDims R B N wf).start j idx 1 = 0 := by
  unfold ScatterDims.start
  exact dif_neg (show ¬ ((1 : Fin 2) ∈ ([0] : List (Fin 2))) by decide)

/-- The row axis is inserted: no window coordinate there. -/
theorem row_window0 (j : (⟨2, ![N, B]⟩ : Shape).Idx) : (rowDims R B N wf).window j 0 = 0 := by
  unfold ScatterDims.window
  exact dif_neg (show ¬ ((0 : Fin 2) ∈ ((List.finRange 2).filter (· ∉ ([0] : List (Fin 2))))) by decide)

/-- On the other axis the window coordinate is the update's own. -/
theorem row_window1 (k : Fin N) (b : Fin B) : (rowDims R B N wf).window (ix2 k b) 1 = b.val := by
  unfold ScatterDims.window
  have h1 : (1 : Fin 2) ∈ (rowDims R B N wf).sKept :=
    show (1 : Fin 2) ∈ ((List.finRange 2).filter (· ∉ ([0] : List (Fin 2)))) by decide
  rw [dif_pos h1]
  rfl

/-- Update (k, b') lands on (r, b) exactly when entry `k` of the row numbers, read signed, is `r`, and b' is b. -/
theorem row_lands_iff (idx : IVec ⟨2, ![N, 1]⟩ w) (k : Fin N) (b' : Fin B) (r : Fin R) (b : Fin B) :
    (rowDims R B N wf).resultIdx? (ix2 k b') idx = some (ix2 r b) ↔
      (idx (ix2 k 0)).toInt = (r.val : Int) ∧ b' = b := by
  rw [resultIdx?_eq_some_iff]
  constructor
  · intro h
    have h0 := h 0
    have h1 := h 1
    rw [row_start0, row_window0, Nat.cast_zero, add_zero] at h0
    rw [row_start1, row_window1, zero_add] at h1
    exact ⟨h0, Fin.ext (by exact_mod_cast h1)⟩
  · intro h a
    match a with
    | ⟨0, _⟩ =>
      show (rowDims R B N wf).start (ix2 k b') idx 0 + ((rowDims R B N wf).window (ix2 k b') 0 : Int) = (r.val : Int)
      rw [row_start0, row_window0, Nat.cast_zero, add_zero]; exact h.1
    | ⟨1, _⟩ =>
      show (rowDims R B N wf).start (ix2 k b') idx 1 + ((rowDims R B N wf).window (ix2 k b') 1 : Int) = (b.val : Int)
      rw [row_start1, row_window1, zero_add, h.2]

/-- THE SCATTER ONTO ROWS READ AT (r, b): the operand's entry plus the sum, over the update rows `k` whose row number is
    `r`, of entry `b` of update row `k`. -/
theorem scatterAdd_rows_apply {φ : FTy} (x : FVec Ideal ⟨2, ![R, B]⟩ φ) (idx : IVec ⟨2, ![N, 1]⟩ w)
    (upd : FVec Ideal ⟨2, ![N, B]⟩ φ) (r : Fin R) (b : Fin B) :
    Host.scatterAdd (rowDims R B N wf) x idx upd (ix2 r b)
      = x (ix2 r b) + ∑ k ∈ Finset.univ.filter (fun k : Fin N => (idx (ix2 k 0)).toInt = (r.val : Int)), upd (ix2 k b) := by
  show Ideal.hostScatterAdd (rowDims R B N wf) x idx upd (ix2 r b) = _
  unfold Ideal.hostScatterAdd
  refine congrArg (x (ix2 r b) + ·) ?_
  have lands : ∀ j : (⟨2, ![N, B]⟩ : Shape).Idx, (rowDims R B N wf).resultIdx? j idx = some (ix2 r b) →
      (idx (ix2 (j 0 : Fin N) 0)).toInt = (r.val : Int) ∧ (j 1 : Fin B) = b := by
    intro j hj
    rw [eq_ix2 j] at hj
    exact (row_lands_iff wf idx (j 0) (j 1) r b).mp hj
  refine Finset.sum_bij' (fun j _ => (j 0 : Fin N)) (fun k _ => ix2 k b) ?_ ?_ ?_ ?_ ?_
  · intro j hj
    exact Finset.mem_filter.mpr ⟨Finset.mem_univ _, (lands j (Finset.mem_filter.mp hj).2).1⟩
  · intro k hk
    exact Finset.mem_filter.mpr ⟨Finset.mem_univ _,
      (row_lands_iff wf idx k b r b).mpr ⟨(Finset.mem_filter.mp hk).2, rfl⟩⟩
  · intro j hj
    have hb := (lands j (Finset.mem_filter.mp hj).2).2
    show ix2 (j 0 : Fin N) b = j
    rw [← hb]
    exact (eq_ix2 j).symm
  · intro k _
    rfl
  · intro j hj
    have hb := (lands j (Finset.mem_filter.mp hj).2).2
    show upd j = upd (ix2 (j 0 : Fin N) b)
    rw [← hb]
    exact congrArg upd (eq_ix2 j)

end Rows

/-! ## The row gather -/

section RowGather
variable {α : Type}

/-- The dimension numbers of the row gather for an operand [S, B], start indices [N, 1] and a result [N, B]: the
    result's axis 1 is the offset axis, the operand's axis 0 is collapsed and named by the one entry of a start index,
    slices of shape [1, B]. -/
abbrev rowGatherDims (S B N : Nat)
    (wf : GatherDims.WF ⟨2, ![S, B]⟩ ⟨2, ![N, 1]⟩ ⟨2, ![N, B]⟩ [1] [0] [] [0] [] 1 ![1, B]) :
    GatherDims ⟨2, ![S, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- THE ROW GATHER READ AT (k, b): the operand at the row start index `k` names, read signed and clamped into
    [0, S - 1], and at column `b`. -/
theorem gather_rows_apply {S B N w : Nat} (hS : 0 < S)
    (wf : GatherDims.WF ⟨2, ![S, B]⟩ ⟨2, ![N, 1]⟩ ⟨2, ![N, B]⟩ [1] [0] [] [0] [] 1 ![1, B])
    (x : (⟨2, ![S, B]⟩ : Shape).Idx → α) (idx : IVec ⟨2, ![N, 1]⟩ w) (k : Fin N) (b : Fin B) :
    Host.gather (rowGatherDims S B N wf) x idx (ix2 k b)
      = x (ix2 ⟨min (idx (ix2 k 0)).toInt.toNat (S - 1), by omega⟩ b) := by
  unfold Host.gather
  congr 1
  funext a
  refine Fin.ext ?_
  match a with
  | ⟨0, _⟩ =>
    show (rowGatherDims S B N wf).start (ix2 k b) idx 0 + (rowGatherDims S B N wf).batchCoord (ix2 k b) 0
      + (rowGatherDims S B N wf).offCoord (ix2 k b) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 2) ∈ ([0] : List (Fin 2)) by decide))]
    simp only [Nat.add_zero]
    unfold GatherDims.start
    rw [dif_pos (show (0 : Fin 2) ∈ ([0] : List (Fin 2)) by decide)]
    have hsi : (rowGatherDims S B N wf).siIdx (ix2 k b) ⟨List.idxOf (0 : Fin 2) (rowGatherDims S B N wf).startIndexMap,
        List.idxOf_lt_length_iff.2 (show (0 : Fin 2) ∈ ([0] : List (Fin 2)) by decide)⟩ = ix2 k 0 := by
      funext c; refine Fin.ext ?_
      match c with
      | ⟨0, _⟩ => rfl
      | ⟨1, _⟩ => rfl
    rw [hsi]
    rfl
  | ⟨1, _⟩ =>
    show (rowGatherDims S B N wf).start (ix2 k b) idx 1 + (rowGatherDims S B N wf).batchCoord (ix2 k b) 1
      + (rowGatherDims S B N wf).offCoord (ix2 k b) 1 = b.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr
        ⟨show ¬ ((1 : Fin 2) ∈ ([0] : List (Fin 2))) by decide, List.not_mem_nil⟩)]
    simp only [Nat.add_zero, Nat.zero_add]
    rfl

end RowGather

end Cert.SparseMM

end
-- ==== Proof.RefValue.lean ====
/-
  The reference's result is the specification.

  The reference scales, for every entry `k`, the row of the dense matrix the entry's column number names (taken after
  jnp's wrap of a negative number and the gather's clamp, both of which leave a column number in [0, 8192) alone) by the
  entry's value, and adds the scaled rows into a zero matrix at the entries' row numbers. Read at (r, b) through the
  scatter onto rows that is the sum over the entries of row `r` of value times dense element: the specification.
-/
import proofs.«405985_j68556267978819_2_alg».proof.Proof.Gen.ReferenceIdeal.Read
import proofs.«405985_j68556267978819_2_alg».proof.Proof.LibScatterRead
import proofs.«405985_j68556267978819_2_alg».proof.Proof.Spec
import Idealize.ShloMosaic.PureOps.Ideal.Laws

noncomputable section

open scoped BigOperators

namespace Cert.SparseMM.Ref

open Cert.ReferenceIdeal Cert.ReferenceIdeal.Gen Cert.ReferenceIdeal.Read Cert.SparseMM
open Idealize.ShloMosaic Idealize.ShloMosaic.ValueIdx

/-- The column of row numbers the scatter reads holds, at `k`, row 0 of `ids` at `k`. -/
theorem rows_apply (ids : IVec SIds 32) (k : Fin 2097152) :
    val_main_v15 (F := Ideal) ids (ix2 k 0) = ids (ix2 0 k) := by
  rw [val_main_v15_apply, val_main_v1_apply, val_main_v0_apply]
  refine congrArg ids (funext fun a => Fin.ext ?_)
  match a with
  | ⟨0, _⟩ => rfl
  | ⟨1, _⟩ => exact Nat.mod_eq_of_lt k.isLt

/-- Row 1 of `ids` as a vector. -/
theorem colvec_apply (ids : IVec SIds 32) (k : Fin 2097152) :
    val_main_v3 (F := Ideal) ids (ix1 k) = ids (ix2 1 k) := by
  rw [val_main_v3_apply, val_main_v2_apply]
  refine congrArg ids (funext fun a => Fin.ext ?_)
  match a with
  | ⟨0, _⟩ => rfl
  | ⟨1, _⟩ => exact Nat.mod_eq_of_lt k.isLt

/-- The column of start indices the gather reads holds, at `k`, row 1 of `ids` at `k`: a column number that is not
    negative is not wrapped. -/
theorem cols_apply (ids : IVec SIds 32) (hr : InRange ids) (k : Fin 2097152) :
    val_main_v10 (F := Ideal) ids (ix2 k 0) = ids (ix2 1 k) := by
  rw [val_main_v10_apply]
  have hi : idx_main_v10 (ix2 k (0 : Fin 1)) = ix1 k := funext fun a => match a with | ⟨0, _⟩ => rfl
  rw [hi, val_main_v9_apply, val_main_v6_apply, val_main_v5_apply, val_main_c_apply, colvec_apply]
  have hnot : ¬ IntOp.cmpi .slt (ids (ix2 1 k)) 0#32 = 1#1 := by
    rw [IntOp.cmpi_slt]
    have := (hr 1 k).1
    have h0 : (0#32 : BitVec 32).toInt = 0 := by decide
    omega
  rw [eq_zero_of_ne_one hnot, select_zero]

/-- The printed scatter's dimension numbers are those of the scatter onto rows. -/
theorem scatter_eq : scatter_S8192x128_S2097152x1_S2097152x128_1_0_0_1
    = rowDims 8192 128 2097152 Facts₀.scatter_S8192x128_S2097152x1_S2097152x128_1_0_0_1_wf := rfl

/-- The printed gather's dimension numbers are those of the row gather. -/
theorem gather_eq : gather_S8192x128_S2097152x1_S2097152x128_1_0_n_n_0_1_1128
    = rowGatherDims 8192 128 2097152 Facts₀.gather_S8192x128_S2097152x1_S2097152x128_1_0_n_n_0_1_1128_wf := rfl

/-- THE REFERENCE'S RESULT, for row and column numbers in range, is the specification. -/
theorem result_eq (ids : IVec SIds 32) (vals : FVec Ideal SVals .f32) (x : FVec Ideal SX .f32) (hr : InRange ids) :
    val_main_v16 (F := Ideal) ids vals x = G ids vals x := by
  funext i
  obtain ⟨r, b, rfl⟩ : ∃ (r : Fin 8192) (b : Fin 128), i = ix2 r b := ⟨i 0, i 1, eq_ix2 i⟩
  unfold val_main_v16
  rw [scatter_eq, scatterAdd_rows_apply, val_main_v14_apply, val_main_cst_apply]
  show Ideal.ofBits .f32 0x00000000#32 + _ = _
  rw [Ideal.ofBits_zero_f32, zero_add]
  unfold G
  refine Finset.sum_congr (Finset.filter_congr fun k _ => ?_) (fun k _ => ?_)
  · rw [rows_apply, hr.toInt_eq 0 k]
    exact Nat.cast_inj
  · rw [val_main_v13_apply]
    show val_main_v12 (F := Ideal) vals (ix2 k b) * val_main_v11 (F := Ideal) ids x (ix2 k b)
      = vals (ix1 k) * x (ix2 (colAt ids k) b)
    congr 1
    · rw [val_main_v12_apply, val_main_v4_apply]
      exact congrArg vals (funext fun a => match a with | ⟨0, _⟩ => rfl)
    · unfold val_main_v11
      rw [gather_eq, gather_rows_apply (by decide)]
      have hc : (val_main_v10 (F := Ideal) ids (ix2 k 0)).toInt.toNat = (ids (ix2 1 k)).toNat := by
        rw [cols_apply ids hr k, hr.toInt_eq 1 k]
        exact Int.toNat_natCast _
      refine congrArg x (congrArg (fun c : Fin 8192 => ix2 c b) (Fin.ext ?_))
      show min (val_main_v10 (F := Ideal) ids (ix2 k 0)).toInt.toNat (8192 - 1) = min (ids (ix2 1 k)).toNat 8191
      rw [hc]

end Cert.SparseMM.Ref

end
-- ==== Proof.LibGather2.lean ====
/-
  Two shape operations read at an index, for the corner gathers of a bilinear-style projection.

  (1) The gather that reads, for every channel, one spatial position of a table per row of a two-column array of start
  indices: operand [C, S, S], start indices [N, 2] with the index vector along axis 1, the channel axis an offset
  axis, both spatial axes collapsed and named, in order, by the start index map, slices of shape [C, 1, 1], result
  [C, N]. Result element (c, n) is the table at channel c and at the position whose two coordinates are the two
  entries of row n of the start indices, each read as a signed integer and clamped into [0, S - 1].

  (2) Two column arrays [N, 1] joined along axis 1 into [N, 2], read at column 0 and at column 1.
-/
import Idealize.ShloMosaic.Lib.ValueIdx
import Idealize.ShloMosaic.Lib.Pipeline.Value

noncomputable section

namespace Cert.Sampling

open Idealize.ShloMosaic Idealize.ShloMosaic.ValueIdx

section CornerGather
variable {α : Type}

/-- The dimension numbers of the corner gather for a table [C, S, S], start indices [N, 2] and a result [C, N]; their
    conditions `wf` are decided on a program's literal shapes. -/
abbrev cornerDims (C S N : Nat)
    (wf : GatherDims.WF ⟨3, ![C, S, S]⟩ ⟨2, ![N, 2]⟩ ⟨2, ![C, N]⟩ [0] [1, 2] [] [1, 2] [] 1 ![C, 1, 1]) :
    GatherDims ⟨3, ![C, S, S]⟩ ⟨2, ![N, 2]⟩ ⟨2, ![C, N]⟩ where
  offsetDims := [0]
  collapsedSliceDims := [1, 2]
  operandBatchingDims := []
  startIndicesBatchingDims := []
  startIndexMap := [1, 2]
  indexVectorDim := 1
  sliceSizes := ![C, 1, 1]
  wf := wf

/-- THE CORNER GATHER READ AT `(c, n)`: the table at channel `c` and at the position whose coordinates are the two
    entries of row `n` of the start indices, each read signed and clamped into `[0, S - 1]`. On the channel axis the
    start is zero (the axis is not in the start index map) and the offset is the result's coordinate; on each spatial
    axis the slice has extent one, so the clamp's upper end is `S - 1`, and the axis is collapsed, so nothing is added. -/
theorem gather_corner_apply {C S N w : Nat} (hS : 0 < S)
    (wf : GatherDims.WF ⟨3, ![C, S, S]⟩ ⟨2, ![N, 2]⟩ ⟨2, ![C, N]⟩ [0] [1, 2] [] [1, 2] [] 1 ![C, 1, 1])
    (x : (⟨3, ![C, S, S]⟩ : Shape).Idx → α) (idx : IVec ⟨2, ![N, 2]⟩ w) (c : Fin C) (n : Fin N) :
    Host.gather (cornerDims C S N wf) x idx (ix2 c n) =
      x (ix3 c ⟨min (idx (ix2 n 0)).toInt.toNat (S - 1), by omega⟩ ⟨min (idx (ix2 n 1)).toInt.toNat (S - 1), by omega⟩) := by
  unfold Host.gather
  congr 1
  funext a
  refine Fin.ext ?_
  match a with
  | ⟨0, _⟩ =>
    show (cornerDims C S N wf).start (ix2 c n) idx 0 + (cornerDims C S N wf).batchCoord (ix2 c n) 0
      + (cornerDims C S N wf).offCoord (ix2 c n) 0 = c.val
    rw [GatherDims.batchCoord_eq_zero _ _ _ List.not_mem_nil]
    unfold GatherDims.start GatherDims.offCoord
    rw [dif_neg (show ¬ ((0 : Fin 3) ∈ ([1, 2] : List (Fin 3))) by decide),
      dif_pos ((GatherDims.mem_sKept _ _).mpr
        ⟨show ¬ ((0 : Fin 3) ∈ ([1, 2] : List (Fin 3))) by decide, List.not_mem_nil⟩)]
    simp only [Nat.add_zero, Nat.zero_add]
    rfl
  | ⟨1, _⟩ =>
    show (cornerDims C S N wf).start (ix2 c n) idx 1 + (cornerDims C S N wf).batchCoord (ix2 c n) 1
      + (cornerDims C S N wf).offCoord (ix2 c n) 1 = min (idx (ix2 n 0)).toInt.toNat (S - 1)
    rw [GatherDims.batchCoord_eq_zero _ _ _ List.not_mem_nil,
      GatherDims.offCoord_eq_zero _ _ _ (fun h => ((GatherDims.mem_sKept _ _).mp h).1
        (show (1 : Fin 3) ∈ ([1, 2] : List (Fin 3)) by decide))]
    simp only [Nat.add_zero]
    unfold GatherDims.start
    rw [dif_pos (show (1 : Fin 3) ∈ ([1, 2] : List (Fin 3)) by decide)]
    have hsi : (cornerDims C S N wf).siIdx (ix2 c n) ⟨List.idxOf (1 : Fin 3) (cornerDims C S N wf).startIndexMap,
        List.idxOf_lt_length_iff.2 (show (1 : Fin 3) ∈ ([1, 2] : List (Fin 3)) by decide)⟩ = ix2 n 0 := by
      funext b; refine Fin.ext ?_
      match b with
      | ⟨0, _⟩ => rfl
      | ⟨1, _⟩ => rfl
    rw [hsi]
    rfl
  | ⟨2, _⟩ =>
    show (cornerDims C S N wf).start (ix2 c n) idx 2 + (cornerDims C S N wf).batchCoord (ix2 c n) 2
      + (cornerDims C S N wf).offCoord (ix2 c n) 2 = min (idx (ix2 n 1)).toInt.toNat (S - 1)
    rw [GatherDims.batchCoord_eq_zero _ _ _ List.not_mem_nil,
      GatherDims.offCoord_eq_zero _ _ _ (fun h => ((GatherDims.mem_sKept _ _).mp h).1
        (show (2 : Fin 3) ∈ ([1, 2] : List (Fin 3)) by decide))]
    simp only [Nat.add_zero]
    unfold GatherDims.start
    rw [dif_pos (show (2 : Fin 3) ∈ ([1, 2] : List (Fin 3)) by decide)]
    have hsi : (cornerDims C S N wf).siIdx (ix2 c n) ⟨List.idxOf (2 : Fin 3) (cornerDims C S N wf).startIndexMap,
        List.idxOf_lt_length_iff.2 (show (2 : Fin 3) ∈ ([1, 2] : List (Fin 3)) by decide)⟩ = ix2 n 1 := by
      funext b; refine Fin.ext ?_
      match b with
      | ⟨0, _⟩ => rfl
      | ⟨1, _⟩ => rfl
    rw [hsi]
    rfl

end CornerGather

/-! ## Two columns joined along axis 1, read at a column -/

section Columns
variable {α : Type}

/-- Column 0 of the join of two `[N, 1]` arrays along axis 1 is the first array. -/
theorem concat_cols_apply_zero {N : Nat} (x₁ x₂ : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, x₁⟩, ⟨⟨2, ![N, 1]⟩, x₂⟩] h (ix2 n 0) = x₁ (ix2 n 0) :=
  concatenate_pair_apply_left 1 x₁ x₂ h (ix2 n 0) rfl (ix2 n 0)
    (fun b => match b with | ⟨0, _⟩ => rfl | ⟨1, _⟩ => rfl)

/-- Column 1 of the join of two `[N, 1]` arrays along axis 1 is the second array (its only column, the first
    array's one column less). -/
theorem concat_cols_apply_one {N : Nat} (x₁ x₂ : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, x₁⟩, ⟨⟨2, ![N, 1]⟩, x₂⟩] h (ix2 n 1) = x₂ (ix2 n 0) :=
  concatenate_pair_apply_right 1 x₁ x₂ h (ix2 n 1) rfl rfl (ix2 n 0)
    (fun b hb => match b, hb with | ⟨0, _⟩, _ => rfl | ⟨1, _⟩, hb => absurd rfl hb) rfl

end Columns

end Cert.Sampling

end
-- ==== Proof.LibERealSums.lean ====
/-
  Extended reals that are real numbers, under the ideal instance's operations: a finite sum of coerced reals is the
  coerced sum; the reciprocal square root, the quotient and the maximum of coerced reals are the coerced real ones
  (away from the reciprocal square root's and the quotient's poles); a signed word converted to a float is the integer it
  denotes; and a sum over 4096 indices is the sum of its four consecutive runs of 1024, added in order onto zero.
-/
import Idealize.ShloMosaic.PureOps.Ideal
import Idealize.ShloMosaic.Lib.ValueIdx

noncomputable section

open scoped BigOperators
open Idealize.ShloMosaic

namespace Cert.CosAttn

/-- A finite sum of real numbers, coerced, is the sum of the coerced numbers. -/
theorem coe_sum {ι : Type*} (s : Finset ι) (f : ι → ℝ) : ((∑ i ∈ s, f i : ℝ) : EReal) = ∑ i ∈ s, (f i : EReal) := by
  classical
  refine Finset.induction_on s ?_ ?_
  · rw [Finset.sum_empty, Finset.sum_empty, EReal.coe_zero]
  · intro a t ha ih
    rw [Finset.sum_insert ha, Finset.sum_insert ha, EReal.coe_add, ih]

/-- The reciprocal square root of a positive real. -/
theorem rsqrt_coe_pos {x : ℝ} (hx : 0 < x) : Ideal.rsqrt (x : EReal) = (((Real.sqrt x)⁻¹ : ℝ) : EReal) := by
  rw [Ideal.rsqrt_coe, if_neg (not_lt.mpr hx.le), if_neg hx.ne']

/-- The quotient of two reals by a nonzero one. -/
theorem div_coe_coe (x : ℝ) {y : ℝ} (hy : y ≠ 0) : Ideal.div (x : EReal) (y : EReal) = ((x / y : ℝ) : EReal) := by
  rw [Ideal.div_coe hy, ← EReal.coe_mul, mul_one_div]

/-- A signed 32-bit word converted to a float is the integer it denotes. -/
theorem sitofp_coe (w : BitVec 32) : FloatOps.sitofp (F := Ideal) .f32 w = (((w.toInt : ℝ)) : EReal) := by
  rfl

/-- A sum over 4096 indices is its four runs of 1024 consecutive indices, added in order onto zero. -/
theorem sum_four_runs (g : Fin 4096 → ℝ) :
    ∑ s : Fin 4096, g s
      = (((0 + ∑ r : Fin 1024, g ⟨1024 * 0 + r.val, by omega⟩) + ∑ r : Fin 1024, g ⟨1024 * 1 + r.val, by omega⟩)
          + ∑ r : Fin 1024, g ⟨1024 * 2 + r.val, by omega⟩) + ∑ r : Fin 1024, g ⟨1024 * 3 + r.val, by omega⟩ := by
  -- index `s` is `r + 1024 · j` for exactly one run `j : Fin 4` and one place `r : Fin 1024` in it
  have run : ∀ (j : Fin 4) (c : ℕ) (_ : j.val = c) (hj : ∀ r : Fin 1024, 1024 * c + r.val < 4096),
      ∑ r : Fin 1024, g ((finProdFinEquiv : Fin 4 × Fin 1024 ≃ Fin 4096) (j, r))
        = ∑ r : Fin 1024, g ⟨1024 * c + r.val, hj r⟩ := by
    intro j c hc hj
    refine Finset.sum_congr rfl fun r _ => congrArg g (Fin.ext ?_)
    show r.val + 1024 * j.val = 1024 * c + r.val
    rw [hc]; omega
  rw [← Equiv.sum_comp (finProdFinEquiv : Fin 4 × Fin 1024 ≃ Fin 4096) g, Fintype.sum_prod_type, Fin.sum_univ_four,
    zero_add, run 0 0 rfl (fun r => by omega), run 1 1 rfl (fun r => by omega), run 2 2 rfl (fun r => by omega),
    run 3 3 rfl (fun r => by omega)]

end Cert.CosAttn

end
-- ==== Proof.Algebra.lean ====
/-
  The law that joins the two programs: a sparse matrix given as a list of entries (a row, a column, a value per
  entry; several entries may name one cell), first summed into a dense matrix cell by cell and then multiplied with a
  dense matrix, gives at every output position the sum, over the entries of that output row, of the entry's value times
  the dense matrix's row the entry's column names. On real numbers this is distributivity and a change of the order
  of summation; on extended reals it holds for entries and factors that are real numbers.
-/
import Mathlib.Algebra.BigOperators.Ring.Finset
import Mathlib.Data.EReal.Operations
import proofs.«405985_j68556267978819_2_alg».proof.Proof.LibERealSums

noncomputable section

open scoped BigOperators

namespace Cert.SparseMM

variable {K C : Type} [Fintype K] [Fintype C] [DecidableEq C]

/-- Over the reals: the dense matrix's row `r` (cell `c` the sum of the values of the entries of row `r` that name
    column `c`; `p k` says entry `k` is in row `r`) times the column `x` is the sum over the row's entries of value times
    `x` at the entry's column. -/
theorem sum_cells_mul (p : K → Prop) [DecidablePred p] (col : K → C) (v : K → ℝ) (x : C → ℝ) :
    ∑ c : C, (∑ k ∈ Finset.univ.filter (fun k => p k ∧ col k = c), v k) * x c
      = ∑ k ∈ Finset.univ.filter p, v k * x (col k) := by
  have h1 : ∀ c : C, (∑ k ∈ Finset.univ.filter (fun k => p k ∧ col k = c), v k) * x c
      = ∑ k ∈ Finset.univ.filter p, if col k = c then v k * x c else 0 := by
    intro c
    rw [Finset.sum_mul, ← Finset.filter_filter, Finset.sum_filter]
  rw [Finset.sum_congr rfl (fun c _ => h1 c), Finset.sum_comm]
  refine Finset.sum_congr rfl (fun k _ => ?_)
  rw [Finset.sum_eq_single (col k)]
  · rw [if_pos rfl]
  · intro c _ hc
    rw [if_neg (fun h => hc h.symm)]
  · intro h
    exact absurd (Finset.mem_univ _) h

/-- The same on extended reals, for real entries and factors, with the zero each of the two sums starts from. -/
theorem ereal_sum_cells_mul (p : K → Prop) [DecidablePred p] (col : K → C) (v : K → ℝ) (x : C → ℝ) :
    (0 : EReal) + ∑ c : C, ((0 : EReal) + ∑ k ∈ Finset.univ.filter (fun k => p k ∧ col k = c), (v k : EReal)) * (x c : EReal)
      = ∑ k ∈ Finset.univ.filter p, (v k : EReal) * (x (col k) : EReal) := by
  simp only [zero_add, ← Cert.CosAttn.coe_sum, ← EReal.coe_mul]
  exact congrArg _ (sum_cells_mul p col v x)

end Cert.SparseMM

end
-- ==== Proof.KernelHost.lean ====
/-
  The kernel's host side: the dense matrix the entries describe, and its product with the dense argument.

  Before the matrix product the program adds every entry's value into a zero 8192 × 8192 matrix at the cell the
  entry's (row number, column number) pair names — each number first wrapped as jnp wraps a negative index, which
  leaves a number in [0, 8192) alone. So cell (r, c) holds the sum of the values of the entries whose pair is (r, c),
  and row `r` of that matrix times a column of the dense argument is, by distributivity over real numbers and a change
  of the order of summation, the specification at row `r`.
-/
import proofs.«405985_j68556267978819_2_alg».proof.Proof.Gen.KernelIdeal
import proofs.«405985_j68556267978819_2_alg».proof.Proof.LibScatterRead
import proofs.«405985_j68556267978819_2_alg».proof.Proof.LibGather2
import proofs.«405985_j68556267978819_2_alg».proof.Proof.Algebra
import proofs.«405985_j68556267978819_2_alg».proof.Proof.Spec
import Idealize.ShloMosaic.Lib.Pipeline.Value
import Idealize.ShloMosaic.PureOps.Ideal.Laws

noncomputable section

open scoped BigOperators

namespace Cert.SparseMM.Kern

open Cert.KernelIdeal Cert.KernelIdeal.Facts₀ Cert.SparseMM
open Idealize.ShloMosaic Idealize.ShloMosaic.ValueIdx

/-! ## The host operations' term -/

/-- Row 0 of `ids` as a vector: the entries' row numbers. -/
def rowNums (ids : IVec S2x2097152 32) : IVec S2097152 32 :=
  shapeCast _ (extractStridedSlice S1x2097152 ![0, 0] ids slices_S2x2097152_S1x2097152_0_0) shapeCasts_S1x2097152_S2097152

/-- Row 1 of `ids` as a vector: the entries' column numbers. -/
def colNums (ids : IVec S2x2097152 32) : IVec S2097152 32 :=
  shapeCast _ (extractStridedSlice S1x2097152 ![1, 0] ids slices_S2x2097152_S1x2097152_1_0) shapeCasts_S1x2097152_S2097152

/-- jnp's wrap of a negative index: 8192 added where the number is below zero. -/
def wrap (v : IVec S2097152 32) : IVec S2097152 32 :=
  select (cmpi .slt v (broadcastInDim S2097152 ![] bcast_S_S2097152 (constantI S_ 32 0#32)))
    (addi v (broadcastInDim S2097152 ![] bcast_S_S2097152 (constantI S_ 32 8192#32))) v

/-- The (row, column) pairs, one per entry, as the scatter reads them. -/
def pairs (ids : IVec S2x2097152 32) : IVec S2097152x2 32 :=
  concatenate S2097152x2 1
    [⟨S2097152x1, broadcastInDim S2097152x1 ![0] bcast_S2097152_S2097152x1_0 (wrap (rowNums ids))⟩,
     ⟨S2097152x1, broadcastInDim S2097152x1 ![0] bcast_S2097152_S2097152x1_0 (wrap (colNums ids))⟩]
    concatenates_S2097152x1_S2097152x1_S2097152x2_d1

/-- The dense matrix: the values added into a zero matrix at their pairs, then changed of format. -/
def dense (ids : IVec S2x2097152 32) (vals : FVec Ideal S2097152 .f32) : FVec Ideal S8192x8192 .bf16 :=
  truncf .bf16 (Host.scatterAdd scatter_S8192x8192_S2097152x2_S2097152_n_01_01_1
    (broadcastInDim S8192x8192 ![] bcast_S_S8192x8192 (constant S_ .f32 0x00000000#32)) (pairs ids) vals) bitsLt_bf16_f32

/-! ## The pairs at an entry -/

theorem rowNums_apply (ids : IVec S2x2097152 32) (k : Fin 2097152) : rowNums ids (ix1 k) = ids (ix2 0 k) := by
  unfold rowNums
  rw [shapeCast_apply _ shapeCasts_S1x2097152_S2097152 (ix1 k) (ix2 (0 : Fin 1) k)
    (by rewrite [Shape.rowMajor_val_two, Shape.rowMajor_val_one]; show 0 * 2097152 + k.val = k.val; omega)]
  exact extractStridedSlice_apply ![0, 0] ids slices_S2x2097152_S1x2097152_0_0 (ix2 (0 : Fin 1) k) (ix2 (0 : Fin 2) k)
    (fun a => match a with
      | ⟨0, _⟩ => rfl
      | ⟨1, _⟩ => by show k.val = 0 + k.val; omega)

theorem colNums_apply (ids : IVec S2x2097152 32) (k : Fin 2097152) : colNums ids (ix1 k) = ids (ix2 1 k) := by
  unfold colNums
  rw [shapeCast_apply _ shapeCasts_S1x2097152_S2097152 (ix1 k) (ix2 (0 : Fin 1) k)
    (by rewrite [Shape.rowMajor_val_two, Shape.rowMajor_val_one]; show 0 * 2097152 + k.val = k.val; omega)]
  exact extractStridedSlice_apply ![1, 0] ids slices_S2x2097152_S1x2097152_1_0 (ix2 (0 : Fin 1) k) (ix2 (1 : Fin 2) k)
    (fun a => match a with
      | ⟨0, _⟩ => rfl
      | ⟨1, _⟩ => by show k.val = 0 + k.val; omega)

/-- A number that is not negative is not wrapped. -/
theorem wrap_apply (v : IVec S2097152 32) (k : Fin 2097152) (h : 0 ≤ (v (ix1 k)).toInt) : wrap v (ix1 k) = v (ix1 k) := by
  unfold wrap
  rw [select_apply]
  show Scalar.select (IntOp.cmpi .slt (v (ix1 k)) 0#32) _ _ = _
  have hnot : ¬ IntOp.cmpi .slt (v (ix1 k)) 0#32 = 1#1 := by
    rw [IntOp.cmpi_slt]
    have h0 : (0#32 : BitVec 32).toInt = 0 := by decide
    omega
  rw [eq_zero_of_ne_one hnot, select_zero]

/-- A vector as a column, read at (k, 0). -/
theorem column_apply (v : IVec S2097152 32) (k : Fin 2097152) :
    broadcastInDim S2097152x1 ![0] bcast_S2097152_S2097152x1_0 v (ix2 k 0) = v (ix1 k) :=
  broadcastInDim_apply _ bcast_S2097152_S2097152x1_0 v (ix2 k 0) (ix1 k) (fun a => match a with
    | ⟨0, _⟩ => by show k.val = if (2097152 : Nat) = 1 then 0 else k.val; rw [if_neg (by decide)])

/-- For numbers in range, entry `k`'s pair is (its row number, its column number). -/
theorem pairs_apply_zero (ids : IVec SIds 32) (hr : InRange ids) (k : Fin 2097152) :
    pairs ids (ix2 k 0) = ids (ix2 0 k) := by
  unfold pairs
  rw [Cert.Sampling.concat_cols_apply_zero, column_apply, wrap_apply _ _ (by rw [rowNums_apply]; exact (hr 0 k).1),
    rowNums_apply]

theorem pairs_apply_one (ids : IVec SIds 32) (hr : InRange ids) (k : Fin 2097152) :
    pairs ids (ix2 k 1) = ids (ix2 1 k) := by
  unfold pairs
  rw [Cert.Sampling.concat_cols_apply_one, column_apply, wrap_apply _ _ (by rw [colNums_apply]; exact (hr 1 k).1),
    colNums_apply]

/-! ## The dense matrix at a cell, and its product with the dense argument -/

/-- The printed scatter's dimension numbers are those of the scatter onto cells. -/
theorem scatter_eq : scatter_S8192x8192_S2097152x2_S2097152_n_01_01_1
    = cellDims 8192 8192 2097152 scatter_S8192x8192_S2097152x2_S2097152_n_01_01_1_wf := rfl

/-- Cell (r, c) of the dense matrix: zero plus the sum of the values of the entries whose pair is (r, c). -/
theorem dense_apply (ids : IVec SIds 32) (vals : FVec Ideal SVals .f32) (hr : InRange ids) (r c : Fin 8192) :
    dense ids vals (ix2 r c) = (0 : EReal) + ∑ k ∈ Finset.univ.filter (fun k : Fin 2097152 =>
      (ids (ix2 0 k)).toNat = r.val ∧ colAt ids k = c), vals (ix1 k) := by
  unfold dense
  rw [truncf_apply, scatter_eq, scatterAdd_cells_apply]
  show Ideal.ofBits .f32 0x00000000#32 + _ = _
  rw [Ideal.ofBits_zero_f32]
  refine congrArg ((0 : EReal) + ·) (Finset.sum_congr (Finset.filter_congr fun k _ => ?_) (fun _ _ => rfl))
  rw [pairs_apply_zero ids hr k, pairs_apply_one ids hr k, hr.toInt_eq 0 k, hr.toInt_eq 1 k]
  have hc : colAt ids k = c ↔ (ids (ix2 1 k)).toNat = c.val := by
    unfold colAt
    rw [Fin.ext_iff]
    show min (ids (ix2 1 k)).toNat 8191 = c.val ↔ _
    have := hr.toNat_lt 1 k
    omega
  rw [hc]
  exact and_congr Nat.cast_inj Nat.cast_inj

/-- ROW `r` OF THE DENSE MATRIX TIMES COLUMN `q` OF THE DENSE ARGUMENT is the specification at (r, q), for numbers in
    range and real values and elements. -/
theorem dense_mul_eq (ids : IVec SIds 32) (vals : FVec Ideal SVals .f32) (x : FVec Ideal SX .f32)
    (hr : InRange ids) (hv : RealVals vals) (hx : RealX x) (r : Fin 8192) (q : Fin 128) :
    (0 : EReal) + ∑ c : Fin 8192, dense ids vals (ix2 r c) * (truncf .bf16 x bitsLt_bf16_f32 : FVec Ideal SX .bf16) (ix2 c q)
      = G ids vals x (ix2 r q) := by
  choose v hv' using hv
  choose y hy using hx
  have h := ereal_sum_cells_mul (K := Fin 2097152) (C := Fin 8192)
    (fun k => (ids (ix2 0 k)).toNat = r.val) (colAt ids) v (fun c => y (ix2 c q))
  unfold G
  refine Eq.trans ?_ (h.trans ?_)
  · refine congrArg ((0 : EReal) + ·) (Finset.sum_congr rfl fun c _ => ?_)
    rw [dense_apply ids vals hr r c, truncf_apply, hy]
    refine congrArg (· * ((y (ix2 c q) : ℝ) : EReal)) (congrArg ((0 : EReal) + ·) (Finset.sum_congr rfl fun k _ => hv' k))
  · exact Finset.sum_congr rfl fun k _ => by rw [hv' k, hy]

end Cert.SparseMM.Kern

end
-- ==== Proof.KernelBlocks.lean ====
/-
  What the region is given and what its body computes from one pair of blocks.

  The region's two input arrays are the dense 8192 × 8192 matrix of the entries and the dense argument changed of
  format. The body multiplies a block of 1024 rows of the first with the whole second: element (p, q) of the product
  is the sum over the 8192 columns `c` of the left block's (p, c) times the right block's (c, q).
-/
import proofs.«405985_j68556267978819_2_alg».proof.Proof.Gen.KernelIdeal.Frame
import proofs.«405985_j68556267978819_2_alg».proof.Proof.KernelHost
import Idealize.ShloMosaic.Lib.Pipeline.Value
import Idealize.ShloMosaic.Lib.StableHlo.Run
import Idealize.ShloMosaic.PureOps.Ideal.Laws

noncomputable section

open scoped BigOperators

namespace Cert.SparseMM.Kern

open Cert.KernelIdeal Cert.KernelIdeal.Gen Cert.SparseMM
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What the region finds in its two input arrays -/

set_option maxHeartbeats 4000000 in
/-- Window 0's array is the dense matrix of the launch contents of `ids` and `vals`. -/
theorem V_dense (c : Dev nD) :
    V m c main_v19 = dense (m ((c : Thread nD τ).loc main_arg0)) (m ((c : Thread nD τ).loc main_arg1)) := by
  dsimp only [Gen.V, Gen.hostOps0]
  after_results
  rfl

/-- Window 1's array is the dense argument, changed of format. -/
theorem V_arg (c : Dev nD) :
    V m c main_v20 = (truncf .bf16 (m ((c : Thread nD τ).loc main_arg2)) Facts₀.bitsLt_bf16_f32 : FVec Ideal S8192x128 .bf16) := by
  dsimp only [Gen.V, Gen.hostOps0]
  after_results

/-! ## The body's product at an element -/

/-- Element (p, q) of the body's product: the sum over the 8192 contracted positions of the left block's element in
    row `p` times the right block's element in column `q`. -/
theorem payload_apply (x0 : Vec Ideal S1024x8192 .bf16) (x1 : Vec Ideal S8192x128 .bf16) (p : Fin 1024) (q : Fin 128) :
    k0_pay1 x0 x1 (ix2 p q) = ∑ c : Fin 8192, x0 (ix2 p c) * x1 (ix2 c q) := by
  unfold k0_pay1
  rw [shapeCast_self, shapeCast_self]
  show FloatOps.matmul (F := Ideal) dot_S1024x8192_S8192x128_S1024x128_1_0_0_1_n_n none
    (x0 : FVec Ideal S1024x8192 .bf16) (x1 : FVec Ideal S8192x128 .bf16)
    (constant S1024x128 .f32 0x00000000#32) (ix2 p q) = _
  rw [Ideal.matmul_constant_zero_apply]
  refine (Equiv.sum_comp (contrEquiv1 dot_S1024x8192_S8192x128_S1024x128_1_0_0_1_n_n 8192 rfl rfl).symm _).symm.trans ?_
  refine Finset.sum_congr rfl fun c _ => ?_
  congr 1
  · refine congrArg x0 (funext fun a => Fin.ext ?_)
    match a with
    | ⟨0, _⟩ => rfl
    | ⟨1, _⟩ =>
      exact (DotDims.lhsIdx_val_of_single _ (cl := (1 : Fin 2)) rfl _ _).trans
        (contrEquiv1_symm_val dot_S1024x8192_S8192x128_S1024x128_1_0_0_1_n_n 8192 rfl rfl c)
  · refine congrArg x1 (funext fun a => Fin.ext ?_)
    match a with
    | ⟨0, _⟩ =>
      exact (DotDims.rhsIdx_val_of_single _ (cr := (0 : Fin 2)) rfl _ _).trans
        (contrEquiv1_symm_val dot_S1024x8192_S8192x128_S1024x128_1_0_0_1_n_n 8192 rfl rfl c)
    | ⟨1, _⟩ => rfl

/-- ONE BLOCK OF THE PRODUCT: if the left block is rows `1024·tv …` of a matrix `W` and the right block is all of `X`
    (each read through an embedding of block indices whose coordinates are as stated), and row `r` of `W` times column
    `q` of `X` is `Gf` at (r, q), then the body's product at block index `j` is `Gf` at the array index `i` of `j`. -/
theorem block_value (x0 : Vec Ideal S1024x8192 .bf16) (x1 : Vec Ideal S8192x128 .bf16)
    (W : FVec Ideal S8192x8192 .bf16) (X : FVec Ideal S8192x128 .bf16) (Gf : FVec Ideal S8192x128 .f32)
    (hG : ∀ (r : Fin 8192) (q : Fin 128), (0 : EReal) + ∑ c' : Fin 8192, W (ix2 r c') * X (ix2 c' q) = Gf (ix2 r q))
    (j : S1024x128.Idx) (i : S8192x128.Idx) (e0 : S1024x8192.Idx → S8192x8192.Idx) (e1 : S8192x128.Idx → S8192x128.Idx)
    (tv : Nat)
    (h0 : ∀ y, x0 y = W (e0 y)) (h1 : ∀ y, x1 y = X (e1 y))
    (he0r : ∀ y, (e0 y 0).val = tv * 1024 + (y 0).val) (he0c : ∀ y, (e0 y 1).val = (y 1).val)
    (he1r : ∀ y, (e1 y 0).val = (y 0).val) (he1c : ∀ y, (e1 y 1).val = (y 1).val)
    (hi0 : (i 0).val = tv * 1024 + (j 0).val) (hi1 : (i 1).val = (j 1).val) :
    k0_pay1 x0 x1 j = Gf i := by
  obtain ⟨p, q, rfl⟩ : ∃ (p : Fin 1024) (q : Fin 128), j = ix2 p q := ⟨j 0, j 1, eq_ix2 j⟩
  obtain ⟨r, q', rfl⟩ : ∃ (r : Fin 8192) (q' : Fin 128), i = ix2 r q' := ⟨i 0, i 1, eq_ix2 i⟩
  have hq : q' = q := Fin.ext hi1
  subst hq
  rw [payload_apply, ← hG r q', zero_add]
  refine Finset.sum_congr rfl fun c' _ => ?_
  rw [h0, h1]
  congr 1
  · refine congrArg W (funext fun a => Fin.ext ?_)
    match a with
    | ⟨0, _⟩ => exact (he0r _).trans hi0.symm
    | ⟨1, _⟩ => exact he0c _
  · refine congrArg X (funext fun a => Fin.ext ?_)
    match a with
    | ⟨0, _⟩ => exact he1r _
    | ⟨1, _⟩ => exact he1c _

end Cert.SparseMM.Kern

end
-- ==== Proof.KernelValue.lean ====
/-
  The kernel's result is the specification.

  The region multiplies, at grid point `t`, the block of 1024 rows of the dense matrix starting at row 1024·t with the
  whole dense argument (both changed of format, which on extended reals changes nothing) and writes the 1024 × 128
  product back as block `t` of the result. An element of that product is row 1024·t + p of the dense matrix times a
  column of the argument, which is the specification there. The eight blocks tile the result, so the whole result is
  the specification.
-/
import proofs.«405985_j68556267978819_2_alg».proof.Proof.Gen.KernelIdeal.Value
import proofs.«405985_j68556267978819_2_alg».proof.Proof.KernelBlocks
import Idealize.ShloMosaic.Lib.Pipeline.Value

noncomputable section

open scoped BigOperators

namespace Cert.SparseMM.Kern

open Cert.KernelIdeal Cert.KernelIdeal.Gen Cert.SparseMM
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

-- the specification and the dense matrix enter below only through the equations stated of them
attribute [local irreducible] Cert.SparseMM.G Cert.SparseMM.Kern.dense

/-! ## What a point writes back -/

/-- A function on window 0's array, read through the block of point `t`, is the function at the block index's place in
    the array. -/
theorem read_blk0 (t : Fin cfg0.N) (f : ((cfg0.win 0).blk t).view.ty.Contents (Elt Ideal)) (y : S1024x8192.Idx) :
    ((cfg0.win 0).blk t).view.read (Elt Ideal) f y = f (((cfg0.win 0).blk t).view.emb y) := rfl

/-- The same for window 1. -/
theorem read_blk1 (t : Fin cfg0.N) (f : ((cfg0.win 1).blk t).view.ty.Contents (Elt Ideal)) (y : S8192x128.Idx) :
    ((cfg0.win 1).blk t).view.read (Elt Ideal) f y = f (((cfg0.win 1).blk t).view.emb y) := rfl

/-- The same for the result's window. -/
theorem read_blk2 (t : Fin cfg0.N) (f : ((cfg0.win 2).blk t).view.ty.Contents (Elt Ideal)) (j : S1024x128.Idx) :
    ((cfg0.win 2).blk t).view.read (Elt Ideal) f j = f (((cfg0.win 2).blk t).view.emb j) := rfl

/-- Window 0's block at point `t` is the dense matrix at the block index's place in the array. -/
theorem iblk0_apply (c : Dev nD) (t : Fin cfg0.N) (y : S1024x8192.Idx) :
    iblk m c 0 t y = dense (m ((c : Thread nD τ).loc main_arg0)) (m ((c : Thread nD τ).loc main_arg1))
      (((cfg0.win 0).blk t).view.emb y) := by
  have e : V m c (Pipeline.arrRef spec0 0)
      = dense (m ((c : Thread nD τ).loc main_arg0)) (m ((c : Thread nD τ).loc main_arg1)) := V_dense m c
  unfold iblk
  refine (read_blk0 t _ y).trans ?_
  rw [e]

/-- Window 1's block at point `t` is the dense argument, changed of format, at the block index's place. -/
theorem iblk1_apply (c : Dev nD) (t : Fin cfg0.N) (y : S8192x128.Idx) :
    iblk m c 1 t y = (truncf .bf16 (m ((c : Thread nD τ).loc main_arg2)) Facts₀.bitsLt_bf16_f32 : FVec Ideal S8192x128 .bf16)
      (((cfg0.win 1).blk t).view.emb y) := by
  have e : V m c (Pipeline.arrRef spec0 1)
      = (truncf .bf16 (m ((c : Thread nD τ).loc main_arg2)) Facts₀.bitsLt_bf16_f32 : FVec Ideal S8192x128 .bf16) := V_arg m c
  unfold iblk
  refine (read_blk1 t _ y).trans ?_
  rw [e]

theorem hz : (![0, 0] : Fin 2 → Nat) = fun _ => 0 := funext fun a => by fin_cases a <;> rfl

/-- The printed index maps, decided over the eight points: window 0 and the result move down one block of rows per
    point, window 1 stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the specification of the launch contents. -/
theorem flushed_eq (c : Dev nD)
    (hr : InRange (m ((c : Thread nD τ).loc main_arg0)))
    (hv : RealVals (m ((c : Thread nD τ).loc main_arg1)))
    (hx : RealX (m ((c : Thread nD τ).loc main_arg2))) (t : Fin cfg0.N) :
    (dats m 0 c).flushed 2 t = ((cfg0.win 2).blk t).view.read (Elt Ideal)
      (G (m ((c : Thread nD τ).loc main_arg0)) (m ((c : Thread nD τ).loc main_arg1)) (m ((c : Thread nD τ).loc main_arg2))) := by
  rw [Cert.KernelIdeal.Value.flushed2]
  unfold out0_2
  rw [View.canon_unit_zero hz]
  simp only [View.ld_unit_zero (S := S1024x8192) hz, View.ld_unit_zero (S := S8192x128) hz]
  obtain ⟨e00, e01, e10, e11, e20, e21⟩ := idx_facts t
  funext j
  refine Eq.trans ?_ (read_blk2 t
    (G (m ((c : Thread nD τ).loc main_arg0)) (m ((c : Thread nD τ).loc main_arg1)) (m ((c : Thread nD τ).loc main_arg2))) j).symm
  show k0_pay1 (iblk m c 0 t) (iblk m c 1 t) j = _
  refine block_value (iblk m c 0 t) (iblk m c 1 t)
    (dense (m ((c : Thread nD τ).loc main_arg0)) (m ((c : Thread nD τ).loc main_arg1)))
    (truncf .bf16 (m ((c : Thread nD τ).loc main_arg2)) Facts₀.bitsLt_bf16_f32)
    (G (m ((c : Thread nD τ).loc main_arg0)) (m ((c : Thread nD τ).loc main_arg1)) (m ((c : Thread nD τ).loc main_arg2)))
    (fun r q => dense_mul_eq _ _ _ hr hv hx r q) j (((cfg0.win 2).blk t).view.emb j)
    (fun y => ((cfg0.win 0).blk t).view.emb y) (fun y => ((cfg0.win 1).blk t).view.emb y) t.val ?_ ?_ ?_ ?_ ?_ ?_ ?_ ?_
  · intro y
    exact iblk0_apply m c t y
  · intro y
    exact iblk1_apply m c t y
  · intro y
    show win0_0.index t (0 : Fin 2) * 1024 + 1 * (y 0).val = t.val * 1024 + (y 0).val
    omega
  · intro y
    show win0_0.index t (1 : Fin 2) * 8192 + 1 * (y 1).val = (y 1).val
    omega
  · intro y
    show win0_1.index t (0 : Fin 2) * 8192 + 1 * (y 0).val = (y 0).val
    omega
  · intro y
    show win0_1.index t (1 : Fin 2) * 128 + 1 * (y 1).val = (y 1).val
    omega
  · show win0_2.index t (0 : Fin 2) * 1024 + 1 * (j 0).val = t.val * 1024 + (j 0).val
    omega
  · show win0_2.index t (1 : Fin 2) * 128 + 1 * (j 1).val = (j 1).val
    omega

/-- An index of the result is in point `t`'s block iff each coordinate is in the block's range on its axis. -/
theorem mem_blk (t : Fin cfg0.N) (i : S8192x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v21).slice (win0_2.rect t)).set ↔ _
  rw [View.set_slice_whole, Rect.mem_set_unit]
  exact Iff.rfl

/-- Every index of the result is in the block of the point its row names. -/
theorem cover (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  have hN : cfg0.N = 8 := N_0
  let t : Fin cfg0.N := ⟨(i 0).val / 1024, by omega⟩
  obtain ⟨-, -, -, -, e20, e21⟩ := idx_facts t
  have e20' : win0_2.index t (0 : Fin 2) = (i 0).val / 1024 := e20
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 128 ≤ (i 1).val ∧ (i 1).val < win0_2.index t (1 : Fin 2) * 128 + 128
    omega

/-- THE RESULT ARRAY after the run is the specification of the launch contents. -/
theorem final (c : Dev nD)
    (hr : InRange (m ((c : Thread nD τ).loc main_arg0)))
    (hv : RealVals (m ((c : Thread nD τ).loc main_arg1)))
    (hx : RealX (m ((c : Thread nD τ).loc main_arg2))) :
    (dats m 0 c).arrAt 2 cfg0.N
      = G (m ((c : Thread nD τ).loc main_arg0)) (m ((c : Thread nD τ).loc main_arg1)) (m ((c : Thread nD τ).loc main_arg2)) :=
  (dats m 0 c).arrAt_eq_of_cover 2 _ (fun t _ => flushed_eq m c hr hv hx t) cover

/-- THE KERNEL'S RUN: under the three facts about the launch contents on every device, every weakly fair execution
    terminates with the result at the specification and the arguments unchanged. -/
theorem run
    (hr : ∀ c : Dev nD, InRange (m ((c : Thread nD τ).loc main_arg0)))
    (hv : ∀ c : Dev nD, RealVals (m ((c : Thread nD τ).loc main_arg1)))
    (hx : ∀ c : Dev nD, RealX (m ((c : Thread nD τ).loc main_arg2))) :
    θ_run defs (onTc (τ := τ) (main (F := Ideal))) ⟨m, fun _ => 0, ρ⟩ fun r => ∀ c : Dev nD,
      r.2.mem ((c : Thread nD τ).loc main_v21)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hr c) (hv c) (hx c)), (h c).2⟩)
    (Cert.KernelIdeal.Value.run_blocks m ρ)

end Cert.SparseMM.Kern

end
-- ==== Proof.lean ====
/-
  A sparse matrix times a dense one, two ways.

  The arguments are 2097152 entries of a sparse 8192 × 8192 matrix — `ids` holds each entry's row and column number,
  `vals` its value; several entries may name one cell, and then their values add — and a dense 8192 × 128 matrix `x`.
  The reference scales, per entry, the row of `x` the entry's column number names by the entry's value, and adds the
  scaled rows up by row number. The kernel first adds the values into a dense 8192 × 8192 matrix cell by cell, on the
  host, and then multiplies that matrix with `x` in a Pallas region, 1024 rows per grid point.

  Both compute, at (r, b), the sum over the entries `k` of row `r` of `vals k · x (column of k, b)`
  (Proof/Spec.lean). For the reference that is the scatter and the gather read at an index (Proof/RefValue.lean). For
  the kernel, cell (r, c) of the dense matrix is the sum of the values of the entries at (r, c), and
  ∑_c (∑_{k at (r, c)} vals k) · x (c, b) = ∑_{k in row r} vals k · x (column of k, b) by distributivity and a change
  of the order of summation (Proof/Algebra.lean, Proof/KernelHost.lean, Proof/KernelValue.lean). Distributivity is a
  law of real numbers, not of extended reals, so the proof uses that the values and the elements of `x` are finite.

  The two programs treat a row or column number outside [0, 8192) differently (the kernel wraps a negative row number
  where the reference drops the entry; the reference clamps a column number past the end where the kernel drops the
  entry), so the precondition also says that every row and column number lies in [0, 8192): there the wrap, the clamp
  and the dropping all do nothing (Proof/PreDecode.lean reads the precondition back).

  The three frames are the generated ones (the reference's is its generated run with the result dropped); no rewrite
  was applied to the kernel's text, so it is its own idealization.
-/
import proofs.«405985_j68556267978819_2_alg».proof.Defs
import proofs.«405985_j68556267978819_2_alg».proof.Proof.Gen.Kernel
import proofs.«405985_j68556267978819_2_alg».proof.Proof.Gen.Kernel.Skeleton
import proofs.«405985_j68556267978819_2_alg».proof.Proof.Gen.Kernel.Launch
import proofs.«405985_j68556267978819_2_alg».proof.Proof.Gen.Kernel.Points
import proofs.«405985_j68556267978819_2_alg».proof.Proof.Gen.Kernel.Frame
import proofs.«405985_j68556267978819_2_alg».proof.Proof.Gen.KernelIdeal
import proofs.«405985_j68556267978819_2_alg».proof.Proof.Gen.KernelIdeal.Skeleton
import proofs.«405985_j68556267978819_2_alg».proof.Proof.Gen.KernelIdeal.Launch
import proofs.«405985_j68556267978819_2_alg».proof.Proof.Gen.KernelIdeal.Points
import proofs.«405985_j68556267978819_2_alg».proof.Proof.Gen.KernelIdeal.Frame
import proofs.«405985_j68556267978819_2_alg».proof.Proof.Gen.ReferenceIdeal
import proofs.«405985_j68556267978819_2_alg».proof.Proof.Gen.Pre_finite_inputs
import proofs.«405985_j68556267978819_2_alg».proof.Proof.Gen.KernelIdeal.Value
import proofs.«405985_j68556267978819_2_alg».proof.Proof.Gen.ReferenceIdeal.Run
import proofs.«405985_j68556267978819_2_alg».proof.Proof.Gen.ReferenceIdeal.Read
import proofs.«405985_j68556267978819_2_alg».proof.Proof.PreDecode
import proofs.«405985_j68556267978819_2_alg».proof.Proof.RefValue
import proofs.«405985_j68556267978819_2_alg».proof.Proof.KernelValue
import Idealize.ShloMosaic.Adequacy
import Idealize.ShloMosaic.Init

noncomputable section

namespace Cert.Proof

open Idealize.ShloMosaic Idealize.SL.Sem

/-- The word-level kernel runs and leaves its arguments alone: the generated frame. -/
theorem frame_kernel : Cert.frame_Kernel := fun m ρ _ => Cert.Kernel.Gen.frame m ρ

/-- So does the kernel read on extended reals. -/
theorem frame_kernelIdeal : Cert.frame_KernelIdeal := fun m ρ _ => Cert.KernelIdeal.Gen.frame m ρ

/-- The reference runs and leaves its arguments alone: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On extended reals, from memories that agree on the arguments and satisfy the precondition, both programs end with
    the specification of the arguments in their result: the sum, over the entries of an output row, of value times the
    dense matrix's element at the entry's column. -/
theorem algebraic : Cert.algebraic_KernelIdeal_ReferenceIdeal := by
  intro m ρ m' ρ' hpre hagree
  have hdec := fun c => Cert.SparseMM.of_pre _ _ _ (hpre c)
  refine ⟨_, Cert.SparseMM.Kern.run m ρ (fun c => (hdec c).1) (fun c => (hdec c).2.1) (fun c => (hdec c).2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2]
  exact Cert.SparseMM.Ref.result_eq _ _ _ (hdec c).1

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
